-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S8x4096x1024 : Shape := ⟨3, ![8, 4096, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x1024x1024 .f32) (main_arg1 : FVec F S8x4096x1024 .f32) (main_arg2 : FVec F S8x4096x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x1024x1024 : Shape := ⟨3, ![8, 1024, 1024]⟩
abbrev S8x4096x1024 : Shape := ⟨3, ![8, 4096, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x1024x1024, .f32⟩
  | .hbm, ⟨1, _⟩ => ⟨S8x4096x1024, .f32⟩
  | .hbm, ⟨2, _⟩ => ⟨S8x4096x1024, .f32⟩
  | .hbm, ⟨3, _⟩ => ⟨S8x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024x1024, .f32⟩
  | .local _ .vmem, ⟨7, _⟩ => ⟨S1x1024x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .f32 = 32 ∨ (Rect.block (s := S8x1024x1024) S1x1024x1024.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S8x4096x1024 : Shape := ⟨3, ![8, 4096, 1024]⟩
abbrev S8x1024x4096 : Shape := ⟨3, ![8, 1024, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S8x4096x1024, .f32⟩
  | .hbm, ⟨2, _⟩ => ⟨S8x4096x1024, .f32⟩
  | .hbm, ⟨3, _⟩ => ⟨S8x1024x4096, .f32⟩
  | .hbm, ⟨4, _⟩ => ⟨S8x1024x4096, .f32⟩
  | .hbm, ⟨5, _⟩ => ⟨S8x1024x4096, .f32⟩
  | .hbm, ⟨6, _⟩ => ⟨S_, .f32⟩
  | .hbm, ⟨7, _⟩ => ⟨S8x1024x4096, .f32⟩
  | .hbm, ⟨8, _⟩ => ⟨S8x1024x4096, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S8x1024x4096, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S_, .f32⟩
  | .hbm, ⟨18, _⟩ => ⟨S8x1024x4096, .f32⟩
  | .hbm, ⟨19, _⟩ => ⟨S8x1024x4096, .f32⟩
  | .hbm, ⟨20, _⟩ => ⟨S8x1024x4096, .f32⟩
  | .hbm, ⟨21, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x1024x4096 : S_.BroadcastsInDim S8x1024x4096 (![] : Fin 0 → Fin S8x1024x4096.rank)
  dot_S8x1024x1024_S8x4096x1024_S8x1024x4096_2_2_1_1_0_0_wf : DotDims.WF S8x1024x1024 S8x4096x1024 S8x1024x4096 [2] [2] [1] [1] [0] [0]
  dot_S8x1024x4096_S8x4096x1024_S8x1024x1024_2_1_1_2_0_0_wf : DotDims.WF S8x1024x4096 S8x4096x1024 S8x1024x1024 [2] [1] [1] [2] [0] [0]

variable [Facts₀]

def dot_S8x1024x1024_S8x4096x1024_S8x1024x4096_2_2_1_1_0_0 : DotDims S8x1024x1024 S8x4096x1024 S8x1024x4096 where
  lhsContracting := [2]
  rhsContracting := [2]
  lhsNonContracting := [1]
  rhsNonContracting := [1]
  lhsBatch := [0]
  rhsBatch := [0]
  wf := dot_S8x1024x1024_S8x4096x1024_S8x1024x4096_2_2_1_1_0_0_wf
def dot_S8x1024x4096_S8x4096x1024_S8x1024x1024_2_1_1_2_0_0 : DotDims S8x1024x4096 S8x4096x1024 S8x1024x1024 where
  lhsContracting := [2]
  rhsContracting := [1]
  lhsNonContracting := [1]
  rhsNonContracting := [2]
  lhsBatch := [0]
  rhsBatch := [0]
  wf := dot_S8x1024x4096_S8x4096x1024_S8x1024x1024_2_1_1_2_0_0_wf

class Facts : Prop extends Facts₀ where

variable [Facts]
-- ==== Proof.Spec.lean ====
/-
  A mixture-of-experts feed-forward layer with the tokens already grouped by expert.

  For expert `e`, token `t` and output feature `h`,

      out[e, t, h] = Σ_f  gelu ( Σ_k x[e, t, k] · w1[e, f, k] ) · w2[e, f, h],

  where `gelu` is the tanh approximation  u ↦ u · (½ · (1 + tanh (a · (u + b · u³)))).  This file states that
  function over the extended reals, index by index, and proves the one law of sums the comparison of the two
  programs needs: a sum over the 4096 hidden features is the sum, over eight consecutive chunks, of the sums
  over each chunk's 512 features.  The law only regroups a finite sum in a commutative monoid, so it holds at the
  infinities as well and asks nothing of the inputs.
-/
import Idealize.ShloMosaic.PureOps.Ideal
import Idealize.ShloMosaic.Lib.ValueIdx

noncomputable section

open scoped BigOperators

namespace ExpertFfn

open Idealize.ShloMosaic Idealize.ShloMosaic.ValueIdx

/-- The tanh approximation of GELU on the extended reals, the cube spelt `u · (u · u)`; the four constants are
    the float words both programs print (b ≈ 0.044715, a ≈ √(2/π), 1 and ½). -/
def gelu (u : EReal) : EReal :=
  u * (Ideal.ofBits .f32 0x3F000000#32 * (Ideal.ofBits .f32 0x3F800000#32
    + Ideal.tanh (Ideal.ofBits .f32 0x3F4C422A#32 * (u + Ideal.ofBits .f32 0x3D372713#32 * (u * (u * u))))))

/-- The same function with the cube spelt `(u · u) · u`. -/
theorem gelu_cube_left (u : EReal) :
    u * (Ideal.ofBits .f32 0x3F000000#32 * (Ideal.ofBits .f32 0x3F800000#32
      + Ideal.tanh (Ideal.ofBits .f32 0x3F4C422A#32 * (u + Ideal.ofBits .f32 0x3D372713#32 * ((u * u) * u))))) = gelu u := by
  unfold gelu
  rw [mul_comm (u * u) u]

/-- The hidden pre-activation of expert `e`, token `t`, hidden feature `f`: row `t` of `x[e]` against row `f` of
    `w1[e]`. -/
def hidden (x : (⟨3, ![8, 1024, 1024]⟩ : Shape).Idx → EReal) (w1 : (⟨3, ![8, 4096, 1024]⟩ : Shape).Idx → EReal)
    (e : Fin 8) (t : Fin 1024) (f : Fin 4096) : EReal :=
  ∑ k : Fin 1024, x (ix3 e t k) * w1 (ix3 e f k)

/-- The layer's output as one function of the three argument arrays. -/
def layer (x : (⟨3, ![8, 1024, 1024]⟩ : Shape).Idx → EReal) (w1 w2 : (⟨3, ![8, 4096, 1024]⟩ : Shape).Idx → EReal) :
    (⟨3, ![8, 1024, 1024]⟩ : Shape).Idx → EReal :=
  fun i => ∑ f : Fin 4096, gelu (hidden x w1 (i 0) (i 1) f) * w2 (ix3 (i 0) f (i 2))

/-- A sum over `A · B` consecutive naturals is the sum over `A` chunks of the sums over each chunk's `B`. -/
theorem sum_chunks {M : Type*} [AddCommMonoid M] (A B : ℕ) (ψ : ℕ → M) :
    ∑ f : Fin (A * B), ψ f.val = ∑ s ∈ Finset.range A, ∑ r : Fin B, ψ (B * s + r.val) := by
  rw [Finset.sum_range (fun s => ∑ r : Fin B, ψ (B * s + r.val)), ← Fintype.sum_prod_type',
    ← Equiv.sum_comp (finProdFinEquiv (m := A) (n := B))]
  refine Finset.sum_congr rfl fun p _ => congrArg ψ ?_
  show p.2.val + B * p.1.val = B * p.1.val + p.2.val
  omega

/-- The 4096 hidden features as eight chunks of 512. -/
theorem sum_hidden_chunks {M : Type*} [AddCommMonoid M] (ψ : ℕ → M) :
    ∑ f : Fin 4096, ψ f.val = ∑ s ∈ Finset.range 8, ∑ r : Fin 512, ψ (512 * s + r.val) :=
  sum_chunks 8 512 ψ

end ExpertFfn

end
-- ==== Proof.RefSide.lean ====
/-
  The reference program computes the layer.

  The reference is two batched contractions with the tanh-approximate GELU between them:
  `h[e,t,f] = Σ_k x[e,t,k] · w1[e,f,k]`, `g = gelu h` with the cube spelt `(h · h) · h`, and
  `out[e,t,j] = Σ_f g[e,t,f] · w2[e,f,j]`.  Read at an index this is `ExpertFfn.layer` term by term: the two
  contractions are the sums of the specification, and the only difference, the order of the cube's factors,
  is commutativity of the product.
-/
import proofs.«159843_j47278999994761_1_alg».proof.Proof.Gen.ReferenceIdeal.Read
import proofs.«159843_j47278999994761_1_alg».proof.Proof.Spec

noncomputable section

open scoped BigOperators

namespace Cert.ReferenceIdeal.Layer

open Cert.ReferenceIdeal Cert.ReferenceIdeal.Read Idealize.ShloMosaic Idealize.ShloMosaic.ValueIdx

/-- The first contraction at `(e, t, f)` is the specification's hidden pre-activation. -/
theorem hidden_eq (x : S8x1024x1024.Idx → EReal) (w1 : S8x4096x1024.Idx → EReal) (e : Fin 8) (t : Fin 1024) (f : Fin 4096) :
    val_main_v0 (F := Ideal) x w1 (ix3 e t f) = ExpertFfn.hidden x w1 e t f := by
  rw [val_main_v0_apply]
  unfold ExpertFfn.hidden
  refine Finset.sum_congr rfl fun k _ => ?_
  have el : lidx_main_v0 (ix3 e t f) k = ix3 e t k :=
    funext fun a => Fin.ext (by match a with | ⟨0, _⟩ => rfl | ⟨1, _⟩ => rfl | ⟨2, _⟩ => rfl)
  have er : ridx_main_v0 (ix3 e t f) k = ix3 e f k :=
    funext fun a => Fin.ext (by match a with | ⟨0, _⟩ => rfl | ⟨1, _⟩ => rfl | ⟨2, _⟩ => rfl)
  rw [el, er]

/-- The activation stage at `(e, t, f)` is `gelu` of the hidden pre-activation. -/
theorem act_eq (x : S8x1024x1024.Idx → EReal) (w1 : S8x4096x1024.Idx → EReal) (e : Fin 8) (t : Fin 1024) (f : Fin 4096) :
    val_main_v13 (F := Ideal) x w1 (ix3 e t f) = ExpertFfn.gelu (ExpertFfn.hidden x w1 e t f) := by
  rw [val_main_v13_apply, val_main_v12_apply, val_main_v11_apply, val_main_cst_2_apply, val_main_v10_apply,
    val_main_v9_apply, val_main_cst_1_apply, val_main_v8_apply, val_main_v7_apply, val_main_v6_apply,
    val_main_cst_0_apply, val_main_v5_apply, val_main_v4_apply, val_main_v3_apply, val_main_cst_apply,
    val_main_v2_apply, val_main_v1_apply, hidden_eq]
  exact ExpertFfn.gelu_cube_left _

/-- The reference's result is the layer. -/
theorem result_eq (x : S8x1024x1024.Idx → EReal) (w1 w2 : S8x4096x1024.Idx → EReal) :
    val_main_v14 (F := Ideal) x w1 w2 = ExpertFfn.layer x w1 w2 := by
  funext i
  rw [val_main_v14_apply]
  unfold ExpertFfn.layer
  refine Finset.sum_congr rfl fun f _ => ?_
  have el : lidx_main_v14 i f = ix3 (i 0) (i 1) f :=
    funext fun a => Fin.ext (by match a with | ⟨0, _⟩ => rfl | ⟨1, _⟩ => rfl | ⟨2, _⟩ => rfl)
  have er : ridx_main_v14 i f = ix3 (i 0) f (i 2) :=
    funext fun a => Fin.ext (by match a with | ⟨0, _⟩ => rfl | ⟨1, _⟩ => rfl | ⟨2, _⟩ => rfl)
  rw [el, er]
  exact congrArg (· * w2 (ix3 (i 0) f (i 2))) (act_eq x w1 (i 0) (i 1) f)

end Cert.ReferenceIdeal.Layer

end
-- ==== Proof.KernelStep.lean ====
/-
  One grid step of the kernel, read at an index.

  At grid point `(e, s)` the body holds `x[e]` (one `[1, 1024, 1024]` block), the `s`-th chunks of 512 rows of
  `w1[e]` and `w2[e]`, and the output block accumulated so far.  It forms the chunk's hidden pre-activations
  `u[t, r] = Σ_k x[t, k] · w1[r, k]` (the right operand contracted on its last axis), applies the tanh-approximate
  GELU, multiplies by the chunk of `w2` and adds the product to the block.  With floats read as extended reals the
  narrowing to bf16 is the identity and a matrix product into a zero accumulator is a plain sum, so at `(0, t, j)` the
  step adds  `Σ_r gelu (Σ_k x[0,t,k] · w1[0,r,k]) · w2[0,r,j]`  to what the block held.  The block's initial value
  is zero.
-/
import proofs.«159843_j47278999994761_1_alg».proof.Proof.Gen.KernelIdeal.Skeleton
import proofs.«159843_j47278999994761_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-! ## The two matrix products at an index -/

/-- First product, left operand: the output's row. -/
theorem up_lhs_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
/-- First product, left operand: the contracted coordinate. -/
theorem up_lhs_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
/-- First product, right operand: the output's column names a row of the right operand. -/
theorem up_rhs_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
/-- First product, right operand: the contracted coordinate is its last axis. -/
theorem up_rhs_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The first product into the zero accumulator at `(t, r)`: row `t` of the left against row `r` of the right. -/
theorem up_apply {φ₁ φ₂ : FTy} (l : FVec Ideal S1024x1024 φ₁) (w : FVec Ideal S512x1024 φ₂) (t : Fin 1024) (r : Fin 512) :
    matmul dot_S1024x1024_S512x1024_S1024x512_1_1_0_0_n_n none l w (constant S1024x512 .f32 0x00000000#32) (ix2 t r)
      = ∑ k : Fin 1024, l (ix2 t k) * w (ix2 r k) := by
  show FloatOps.matmul dot_S1024x1024_S512x1024_S1024x512_1_1_0_0_n_n none l w (constant S1024x512 .f32 0x00000000#32) (ix2 t r) = _
  rw [Ideal.matmul_constant_zero_apply,
    ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 t r)
      ((contrEquiv1 dot_S1024x1024_S512x1024_S1024x512_1_1_0_0_n_n 1024 rfl rfl).symm k) = ix2 t k :=
    funext fun a => Fin.ext (by
      match a with
      | ⟨0, _⟩ => exact up_lhs_0 _ _
      | ⟨1, _⟩ => exact (up_lhs_1 _ _).trans hk)
  have er : dot_S1024x1024_S512x1024_S1024x512_1_1_0_0_n_n.rhsIdx (ix2 t r)
      ((contrEquiv1 dot_S1024x1024_S512x1024_S1024x512_1_1_0_0_n_n 1024 rfl rfl).symm k) = ix2 r k :=
    funext fun a => Fin.ext (by
      match a with
      | ⟨0, _⟩ => exact up_rhs_0 _ _
      | ⟨1, _⟩ => exact (up_rhs_1 _ _).trans hk)
  rw [el, er]

/-- Second product, left operand: the output's row. -/
theorem down_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- Second product, left operand: the contracted coordinate. -/
theorem down_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- Second product, right operand: the contracted coordinate is its first axis. -/
theorem down_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- Second product, right operand: the output's column. -/
theorem down_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The second product into the zero accumulator at `(t, j)`: row `t` of the left against column `j` of the right. -/
theorem down_apply {φ₁ φ₂ : FTy} (l : FVec Ideal S1024x512 φ₁) (w : FVec Ideal S512x1024 φ₂) (t j : Fin 1024) :
    matmul dot_S1024x512_S512x1024_S1024x1024_1_0_0_1_n_n none l w (constant S1024x1024 .f32 0x00000000#32) (ix2 t j)
      = ∑ r : Fin 512, l (ix2 t r) * w (ix2 r j) := by
  show FloatOps.matmul dot_S1024x512_S512x1024_S1024x1024_1_0_0_1_n_n none l w (constant S1024x1024 .f32 0x00000000#32) (ix2 t j) = _
  rw [Ideal.matmul_constant_zero_apply,
    ← Equiv.sum_comp (contrEquiv1 dot_S1024x512_S512x1024_S1024x1024_1_0_0_1_n_n 512 rfl rfl).symm]
  refine Finset.sum_congr rfl fun r _ => ?_
  have hr := contrEquiv1_symm_val dot_S1024x512_S512x1024_S1024x1024_1_0_0_1_n_n 512 rfl rfl r
  have el : dot_S1024x512_S512x1024_S1024x1024_1_0_0_1_n_n.lhsIdx (ix2 t j)
      ((contrEquiv1 dot_S1024x512_S512x1024_S1024x1024_1_0_0_1_n_n 512 rfl rfl).symm r) = ix2 t r :=
    funext fun a => Fin.ext (by
      match a with
      | ⟨0, _⟩ => exact down_lhs_0 _ _
      | ⟨1, _⟩ => exact (down_lhs_1 _ _).trans hr)
  have er : dot_S1024x512_S512x1024_S1024x1024_1_0_0_1_n_n.rhsIdx (ix2 t j)
      ((contrEquiv1 dot_S1024x512_S512x1024_S1024x1024_1_0_0_1_n_n 512 rfl rfl).symm r) = ix2 r j :=
    funext fun a => Fin.ext (by
      match a with
      | ⟨0, _⟩ => exact (down_rhs_0 _ _).trans hr
      | ⟨1, _⟩ => exact down_rhs_1 _ _)
  rw [el, er]

/-! ## The step and the initial block -/

/-- The hyperbolic tangent of an array, at an index, is that of the element. -/
theorem tanh_at {s : Shape} {φ : FTy} (a : FVec Ideal s φ) (i : s.Idx) : tanh a i = Ideal.tanh (a i) := rfl

/-- What one step adds at `(0, t, j)`: the chunk's contribution to the sum over hidden features. -/
def addend (x : Vec Ideal S1x1024x1024 .f32) (w1 w2 : Vec Ideal S1x512x1024 .f32) (t j : Fin 1024) : EReal :=
  ∑ r : Fin 512, ExpertFfn.gelu (∑ k : Fin 1024, x (ix3 (0 : Fin 1) t k) * w1 (ix3 (0 : Fin 1) r k)) * w2 (ix3 (0 : Fin 1) r j)

/-- The block's initial value is zero everywhere. -/
theorem init_apply (y : S1x1024x1024.Idx) : k0_pay1 (F := Ideal) y = 0 := by
  obtain ⟨u, t, j, rfl⟩ : ∃ (u : Fin 1) (t j : Fin 1024), y = ix3 u t j := ⟨y 0, y 1, y 2, eq_ix3 y⟩
  unfold k0_pay1
  rw [shapeCast_ab_1ab_apply]
  exact Ideal.ofBits_zero_f32

/-- One step at `(0, t, j)`: what the block held plus the chunk's addend. -/
theorem step_apply (x : Vec Ideal S1x1024x1024 .f32) (w1 w2 : Vec Ideal S1x512x1024 .f32) (acc : Vec Ideal S1x1024x1024 .f32)
    (u : Fin 1) (t j : Fin 1024) :
    k0_pay2 (F := Ideal) x w1 w2 acc (ix3 u t j) = acc (ix3 u t j) + addend x w1 w2 t j := by
  have hu : u = 0 := Subsingleton.elim _ _
  subst hu
  unfold k0_pay2 addend
  rw [shapeCast_ab_1ab_apply, addf_apply, shapeCast_1ab_ab_apply, down_apply]
  refine congrArg (acc (ix3 (0 : Fin 1) t j) + ·) (Finset.sum_congr rfl fun r _ => ?_)
  rw [truncf_apply, truncf_apply, shapeCast_1ab_ab_apply]
  refine congrArg (· * w2 (ix3 (0 : Fin 1) r j)) ?_
  simp only [mulf_apply, addf_apply, broadcast_apply, tanh_at, up_apply, truncf_apply, shapeCast_1ab_ab_apply]
  rfl

end Cert.KernelIdeal.Step

end
-- ==== Proof.KernelFold.lean ====
/-
  The kernel's output array is the layer.

  The grid is `8 × 8`, expert-major: point `n` works on expert `n / 8` and on chunk `n % 8` of the 4096 hidden
  features.  Its blocks are `x[n / 8]` whole, and rows `512 · (n % 8) … 512 · (n % 8) + 511` of `w1[n / 8]` and of
  `w2[n / 8]`.  The output block of expert `e` is reset at point `8e` and stepped at points `8e + 1 … 8e + 7`, each
  step adding its chunk's part of the sum over hidden features to a block that started at zero; after the last
  step the block holds `0 + Σ_{s < 8} Σ_{r < 512} gelu (h[e, t, 512 s + r]) · w2[e, 512 s + r, j]`, which is the sum over
  all 4096 hidden features regrouped into eight chunks.  Regrouping a finite sum of extended reals is free, so
  the inputs' finiteness is never used.
-/
import proofs.«159843_j47278999994761_1_alg».proof.Proof.Gen.KernelIdeal.Value
import proofs.«159843_j47278999994761_1_alg».proof.Proof.KernelStep

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx

/-! ## Which blocks a grid point sees -/

/-- Window 0 (`x`) at point `n`: block `(n / 8, 0, 0)`. -/
theorem idx_x : ∀ t : Fin cfg0.N, win0_0.index t (0 : Fin 3) = t.val / 8 ∧ win0_0.index t (1 : Fin 3) = 0
    ∧ win0_0.index t (2 : Fin 3) = 0 :=
  (by decide +kernel : ∀ t : Fin grid0.N, _)

/-- Window 1 (`w1`) at point `n`: block `(n / 8, n % 8, 0)`. -/
theorem idx_w1 : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)

/-- Window 2 (`w2`) at point `n`: block `(n / 8, n % 8, 0)`. -/
theorem idx_w2 : ∀ t : Fin cfg0.N, win0_2.index t (0 : Fin 3) = t.val / 8 ∧ win0_2.index t (1 : Fin 3) = t.val % 8
    ∧ win0_2.index t (2 : Fin 3) = 0 :=
  (by decide +kernel : ∀ t : Fin grid0.N, _)

section Blocks

variable {F : FTy → Type} [FloatOps F]
variable (m : (ℓ : Loc nD τ sig) → Buf (Elt F) ℓ)

/-- The `x` block of point `n` at `(0, t, k)` is `x[n / 8, t, k]`. -/
theorem xblk_apply (c : Dev nD) (t : Fin cfg0.N) (e : Fin 8) (he : e.val = t.val / 8) (p k : Fin 1024) :
    (iblk m c 0 t : Vec F S1x1024x1024 .f32) (ix3 (0 : Fin 1) p k) = m ((c : Thread nD τ).loc main_arg0) (ix3 e p k) := by
  obtain ⟨h0, h1, h2⟩ := idx_x t
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * 0 = e.val; rw [h0]; omega
  | ⟨1, _⟩ => show win0_0.index t (1 : Fin 3) * 1024 + 1 * p.val = p.val; rw [h1]; omega
  | ⟨2, _⟩ => show win0_0.index t (2 : Fin 3) * 1024 + 1 * k.val = k.val; rw [h2]; omega

/-- The `w1` block of point `n` at `(0, r, k)` is `w1[n / 8, 512 · (n % 8) + r, k]`. -/
theorem w1blk_apply (c : Dev nD) (t : Fin cfg0.N) (e : Fin 8) (he : e.val = t.val / 8) (r : Fin 512) (f : Fin 4096)
    (hf : f.val = 512 * (t.val % 8) + r.val) (k : Fin 1024) :
    (iblk m c 1 t : Vec F S1x512x1024 .f32) (ix3 (0 : Fin 1) r k) = m ((c : Thread nD τ).loc main_arg1) (ix3 e f k) := by
  obtain ⟨h0, h1, h2⟩ := idx_w1 t
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * 0 = e.val; rw [h0]; omega
  | ⟨1, _⟩ => show win0_1.index t (1 : Fin 3) * 512 + 1 * r.val = f.val; rw [h1]; omega
  | ⟨2, _⟩ => show win0_1.index t (2 : Fin 3) * 1024 + 1 * k.val = k.val; rw [h2]; omega

/-- The `w2` block of point `n` at `(0, r, j)` is `w2[n / 8, 512 · (n % 8) + r, j]`. -/
theorem w2blk_apply (c : Dev nD) (t : Fin cfg0.N) (e : Fin 8) (he : e.val = t.val / 8) (r : Fin 512) (f : Fin 4096)
    (hf : f.val = 512 * (t.val % 8) + r.val) (j : Fin 1024) :
    (iblk m c 2 t : Vec F S1x512x1024 .f32) (ix3 (0 : Fin 1) r j) = m ((c : Thread nD τ).loc main_arg2) (ix3 e f j) := by
  obtain ⟨h0, h1, h2⟩ := idx_w2 t
  unfold iblk
  rw [View.read_apply]
  show V m c main_arg2 _ = m (c.tc.loc main_arg2) _
  unfold V
  congr 1
  funext a
  apply Fin.ext
  match a with
  | ⟨0, _⟩ => show win0_2.index t (0 : Fin 3) * 1 + 1 * 0 = e.val; rw [h0]; omega
  | ⟨1, _⟩ => show win0_2.index t (1 : Fin 3) * 512 + 1 * r.val = f.val; rw [h1]; omega
  | ⟨2, _⟩ => show win0_2.index t (2 : Fin 3) * 1024 + 1 * j.val = j.val; rw [h2]; omega

end Blocks

/-! ## One expert's run of eight points -/

variable (m : (ℓ : Loc nD τ sig) → Buf (Elt Ideal) ℓ)

/-- What point `n` adds to its output block at a place of the block (zero past the grid; never read there). -/
def part (c : Dev nD) (n : ℕ) (y : S1x1024x1024.Idx) : EReal :=
  if h : n < cfg0.N then Step.addend (iblk m c 0 ⟨n, h⟩) (iblk m c 1 ⟨n, h⟩) (iblk m c 2 ⟨n, h⟩) (y 1) (y 2) else 0

/-- The term of the sum over hidden features at hidden feature `n` (zero past 4096; never read there). -/
def term (c : Dev nD) (e : Fin 8) (p j : Fin 1024) (n : ℕ) : EReal :=
  if h : n < 4096 then
    ExpertFfn.gelu (ExpertFfn.hidden (m ((c : Thread nD τ).loc main_arg0)) (m ((c : Thread nD τ).loc main_arg1)) e p ⟨n, h⟩)
      * m ((c : Thread nD τ).loc main_arg2) (ix3 e ⟨n, h⟩ j)
  else 0

/-- Point `8e + s` adds chunk `s` of expert `e`'s sum over hidden features. -/
theorem part_eq (c : Dev nD) (e : Fin 8) (s : ℕ) (hs : s < 8) (p j : Fin 1024) :
    part m c (8 * e.val + s) (ix3 (0 : Fin 1) p j) = ∑ r : Fin 512, term m c e p j (512 * s + r.val) := by
  have he : e.val < 8 := e.isLt
  have hn : 8 * e.val + s < cfg0.N := lt_of_lt_of_eq (by omega) (N_0).symm
  unfold part
  rw [dif_pos hn]
  unfold Step.addend
  refine Finset.sum_congr rfl fun r _ => ?_
  have hr : r.val < 512 := r.isLt
  have hf : 512 * s + r.val < 4096 := by omega
  unfold term
  rw [dif_pos hf]
  have hdiv : e.val = (⟨8 * e.val + s, hn⟩ : Fin cfg0.N).val / 8 := by show e.val = (8 * e.val + s) / 8; omega
  have hmod : (⟨512 * s + r.val, hf⟩ : Fin 4096).val = 512 * ((⟨8 * e.val + s, hn⟩ : Fin cfg0.N).val % 8) + r.val := by
    show 512 * s + r.val = 512 * ((8 * e.val + s) % 8) + r.val; omega
  rw [w2blk_apply m c ⟨8 * e.val + s, hn⟩ e hdiv r ⟨512 * s + r.val, hf⟩ hmod j]
  refine congrArg (fun u => ExpertFfn.gelu u * m ((c : Thread nD τ).loc main_arg2) (ix3 e ⟨512 * s + r.val, hf⟩ j)) ?_
  unfold ExpertFfn.hidden
  refine Finset.sum_congr rfl fun k _ => ?_
  rw [xblk_apply m c ⟨8 * e.val + s, hn⟩ e hdiv p k, w1blk_apply m c ⟨8 * e.val + s, hn⟩ e hdiv r ⟨512 * s + r.val, hf⟩ hmod k]

/-- After expert `e`'s eight points its output block holds, at `(0, p, j)`, the layer's value at `(e, p, j)`. -/
theorem run_eq (c : Dev nD) (e : Fin 8) (h : 8 * e.val + 7 < cfg0.N) (p j : Fin 1024) :
    Pipeline.accAt (Value.reset3 m c) (Value.step3 m c) (8 * e.val) 7 h (ix3 (0 : Fin 1) p j)
      = ExpertFfn.layer (m ((c : Thread nD τ).loc main_arg0)) (m ((c : Thread nD τ).loc main_arg1))
          (m ((c : Thread nD τ).loc main_arg2)) (ix3 e p j) := by
  rw [Pipeline.accAt_add_apply (ι := S1x1024x1024.Idx) (β := EReal) (Value.reset3 m c) (Value.step3 m c) (fun _ => 0) (part m c)
    (8 * e.val) 7
    (fun hb y => by
      obtain ⟨u, p', j', rfl⟩ : ∃ (u : Fin 1) (p' j' : Fin 1024), y = ix3 u p' j' := ⟨y 0, y 1, y 2, eq_ix3 y⟩
      unfold Value.reset3 part
      rw [dif_pos hb, Step.step_apply, Step.init_apply])
    (fun n hn acc y _ _ => by
      obtain ⟨u, p', j', rfl⟩ : ∃ (u : Fin 1) (p' j' : Fin 1024), y = ix3 u p' j' := ⟨y 0, y 1, y 2, eq_ix3 y⟩
      unfold Value.step3 part
      rw [dif_pos hn, Step.step_apply])
    7 (le_refl 7) h (ix3 (0 : Fin 1) p j)]
  rw [zero_add]
  unfold ExpertFfn.layer
  have hsum : (∑ f : Fin 4096, ExpertFfn.gelu (ExpertFfn.hidden (m ((c : Thread nD τ).loc main_arg0)) (m ((c : Thread nD τ).loc main_arg1)) e p f)
        * m ((c : Thread nD τ).loc main_arg2) (ix3 e f j)) = ∑ f : Fin 4096, term m c e p j f.val :=
    Finset.sum_congr rfl fun f _ => by unfold term; rw [dif_pos f.isLt]
  refine Eq.trans ?_ (hsum.trans (ExpertFfn.sum_hidden_chunks (term m c e p j))).symm
  refine Finset.sum_congr rfl fun s hs => ?_
  exact part_eq m c e s (Finset.mem_range.mp hs) p j

/-! ## The whole output array -/

/-- The array the kernel leaves is the layer of its three arguments. -/
theorem G3_eq (c : Dev nD) :
    Value.G3 m c = ExpertFfn.layer (m ((c : Thread nD τ).loc main_arg0)) (m ((c : Thread nD τ).loc main_arg1))
      (m ((c : Thread nD τ).loc main_arg2)) := by
  funext i
  obtain ⟨e, p, j, rfl⟩ : ∃ (e : Fin 8) (p j : Fin 1024), i = ix3 e p j := ⟨i 0, i 1, i 2, eq_ix3 i⟩
  have he : e.val < 8 := e.isLt
  have hp : p.val < 1024 := p.isLt
  have hj : j.val < 1024 := j.isLt
  have hN : cfg0.N = 64 := N_0
  have hr : Value.run3Of (ix3 e p j) = e.val := by
    show 1 * (e.val / 1 - 0) + 1 * (p.val / 1024 - 0) + 1 * (j.val / 1024 - 0) = e.val
    have : p.val / 1024 = 0 := by omega
    have : j.val / 1024 = 0 := by omega
    omega
  have hl : Value.loc3Of (ix3 e p j) = ix3 (0 : Fin 1) p j := by
    funext a
    apply Fin.ext
    match a with
    | ⟨0, _⟩ => show e.val % 1 = 0; omega
    | ⟨1, _⟩ => show p.val % 1024 = p.val; omega
    | ⟨2, _⟩ => show j.val % 1024 = j.val; omega
  unfold Value.G3
  rw [dif_pos (by rw [hr, hN]; omega), hl]
  have same : ∀ (b : ℕ) (hb : b + 7 < cfg0.N) (hb' : 8 * e.val + 7 < cfg0.N), b = 8 * e.val →
      Pipeline.accAt (Value.reset3 m c) (Value.step3 m c) b 7 hb = Pipeline.accAt (Value.reset3 m c) (Value.step3 m c) (8 * e.val) 7 hb' := by
    intro b hb hb' hbe; subst hbe; rfl
  rw [same _ _ (by rw [hN]; omega) (by rw [hr])]
  exact run_eq m c e _ p j

end Cert.KernelIdeal.Fold

end
-- ==== Proof.lean ====
/- The fused expert feed-forward kernel against its einsum reference, over the extended reals.

   Both programs compute, for expert `e`, token `t` and output feature `j`,
       out[e, t, j] = Σ_f gelu (Σ_k x[e, t, k] · w1[e, f, k]) · w2[e, f, j]
   with the tanh-approximate GELU and the same four float constants.  The reference does it as two batched
   contractions over all 4096 hidden features at once (Proof/RefSide.lean).  The kernel walks an 8 × 8 grid,
   expert-major: at each point it takes one chunk of 512 hidden features, forms the chunk's part of the sum and
   adds it to the expert's output block, which it zeroes at the expert's first point (Proof/KernelStep.lean reads
   one step at an index; Proof/KernelFold.lean identifies each point's blocks and sums the eight steps).  The two
   agree because a finite sum of extended reals may be regrouped into consecutive chunks and because the product
   is commutative (the cube inside GELU is spelt `u · (u · u)` on one side and `(u · u) · u` on the other)
   (Proof/Spec.lean).  Neither law needs the inputs to be finite, so the precondition is not opened.  Narrowing to
   bf16 before the matrix products is the identity on extended reals, and the idealization rewrote nothing, so the
   kernel's idealization is its own text. -/
import proofs.«159843_j47278999994761_1_alg».proof.Defs
import proofs.«159843_j47278999994761_1_alg».proof.Proof.Gen.Kernel.Frame
import proofs.«159843_j47278999994761_1_alg».proof.Proof.Gen.KernelIdeal.Value
import proofs.«159843_j47278999994761_1_alg».proof.Proof.Gen.Pre_finite_inputs
import proofs.«159843_j47278999994761_1_alg».proof.Proof.Gen.ReferenceIdeal.Run
import proofs.«159843_j47278999994761_1_alg».proof.Proof.RefSide
import proofs.«159843_j47278999994761_1_alg».proof.Proof.KernelFold
import Idealize.ShloMosaic.Adequacy
import Idealize.ShloMosaic.Init

noncomputable section

namespace Cert.Proof

open Idealize.ShloMosaic Idealize.SL.Sem

/-- The idealized kernel runs to the end and leaves its arguments alone: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- So does the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on `x`, `w1` and `w2` both programs end with the layer of those arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelIdeal.Fold.G3_eq]
  exact (Cert.ReferenceIdeal.Read.val_main_v14_eq _ _ _).trans (Cert.ReferenceIdeal.Layer.result_eq _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
